-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S800000 : Shape := ⟨1, ![800000]⟩
abbrev S96x96 : Shape := ⟨2, ![96, 96]⟩
abbrev S96 : Shape := ⟨1, ![96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S800000 : S_.BroadcastsInDim S800000 (![] : Fin 0 → Fin S800000.rank)
  reducesTo_S800000_S_d0 : S800000.ReducesTo [0] S_
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_

variable [Facts]

def fn_part2 {F : FTy → Type} [FloatOps F] (main_arg7 : FVec F S96 .f32) (main_v33 : IVec S_ 1) : IVec S_ 1 :=
  let main_v34 : FVec F S96 .f32 := Host.absf main_arg7
  let main_cst_12 : FVec F S_ .f32 := constant S_ .f32 0x7F800000#32
  let main_v35 : FVec F S96 .f32 := broadcastInDim S96 ![] bcast_S_S96 main_cst_12
  let main_v36 : IVec S96 1 := cmpf .olt main_v34 main_v35
  let main_c_13 : IVec S_ 1 := constantI S_ 1 1#1
  let main_v37 : IVec S_ 1 := (fun x v => Host.reduce IntOp.andi x v reducesTo_S96_S_d0 h_S_) main_v36 main_c_13
  let main_v38 : IVec S_ 1 := andi main_v33 main_v37
  main_v38

def fn_part1 {F : FTy → Type} [FloatOps F] (main_arg4 : FVec F S96x96 .f32) (main_arg5 : FVec F S96 .f32) (main_arg6 : FVec F S96x96 .f32) (main_arg7 : FVec F S96 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x96 .f32 := Host.absf main_arg4
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96 .f32 := Host.absf main_arg5
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S96x96 .f32 := Host.absf main_arg6
  let main_cst_10 : FVec F S_ .f32 := constant S_ .f32 0x7F800000#32
  let main_v30 : FVec F S96x96 .f32 := broadcastInDim S96x96 ![] bcast_S_S96x96 main_cst_10
  let main_v31 : IVec S96x96 1 := cmpf .olt main_v29 main_v30
  let main_c_11 : IVec S_ 1 := constantI S_ 1 1#1
  let main_v32 : IVec S_ 1 := (fun x v => Host.reduce IntOp.andi x v reducesTo_S96x96_S_d0_1 h_S_) main_v31 main_c_11
  let main_v33 : IVec S_ 1 := andi main_v28 main_v32
  fn_part2 (F := F) main_arg7 main_v33

def fn {F : FTy → Type} [FloatOps F] (main_arg0 : FVec F S50000x96 .f32) (main_arg1 : FVec F S800000 .f32) (main_arg2 : FVec F S96x96 .f32) (main_arg3 : FVec F S96 .f32) (main_arg4 : FVec F S96x96 .f32) (main_arg5 : FVec F S96 .f32) (main_arg6 : FVec F S96x96 .f32) (main_arg7 : FVec F S96 .f32) (main_arg8 : IVec S800000 32) (main_arg9 : IVec S800000 32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S96x96 .f32 := Host.absf main_arg2
  let main_cst_2 : FVec F S_ .f32 := constant S_ .f32 0x7F800000#32
  let main_v10 : FVec F S96x96 .f32 := broadcastInDim S96x96 ![] bcast_S_S96x96 main_cst_2
  let main_v11 : IVec S96x96 1 := cmpf .olt main_v9 main_v10
  let main_c_3 : IVec S_ 1 := constantI S_ 1 1#1
  let main_v12 : IVec S_ 1 := (fun x v => Host.reduce IntOp.andi x v reducesTo_S96x96_S_d0_1 h_S_) main_v11 main_c_3
  let main_v13 : IVec S_ 1 := andi main_v8 main_v12
  let main_v14 : FVec F S96 .f32 := Host.absf main_arg3
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg4 main_arg5 main_arg6 main_arg7 main_v13 main_v16
-- ==== Kernel.lean ====
abbrev S50000x96 : Shape := ⟨2, ![50000, 96]⟩
abbrev S800000 : Shape := ⟨1, ![800000]⟩
abbrev S96x96 : Shape := ⟨2, ![96, 96]⟩
abbrev S96 : Shape := ⟨1, ![96]⟩
abbrev S1x96 : Shape := ⟨2, ![1, 96]⟩
abbrev S5000x96 : Shape := ⟨2, ![5000, 96]⟩
abbrev S800000x1 : Shape := ⟨2, ![800000, 1]⟩
abbrev S_ : Shape := ⟨0, ![]⟩
abbrev S800000x96 : Shape := ⟨2, ![800000, 96]⟩

abbrev nBuf : Space → Nat
  | .hbm => 31
  | .vmem => 16
  | .smem => 0
  | _ => 0

abbrev bufTy : (tb : Table) → Fin (tcTables nBuf tb) → BufTy
  | .hbm, ⟨0, _⟩ => ⟨S50000x96, .f32⟩
  | .hbm, ⟨1, _⟩ => ⟨S800000, .f32⟩
  | .hbm, ⟨2, _⟩ => ⟨S96x96, .f32⟩
  | .hbm, ⟨3, _⟩ => ⟨S96, .f32⟩
  | .hbm, ⟨4, _⟩ => ⟨S96x96, .f32⟩
  | .hbm, ⟨5, _⟩ => ⟨S96, .f32⟩
  | .hbm, ⟨6, _⟩ => ⟨S96x96, .f32⟩
  | .hbm, ⟨7, _⟩ => ⟨S96, .f32⟩
  | .hbm, ⟨8, _⟩ => ⟨S800000, .i32⟩
  | .hbm, ⟨9, _⟩ => ⟨S800000, .i32⟩
  | .hbm, ⟨10, _⟩ => ⟨S1x96, .f32⟩
  | .hbm, ⟨11, _⟩ => ⟨S1x96, .f32⟩
  | .hbm, ⟨12, _⟩ => ⟨S1x96, .f32⟩
  | .hbm, ⟨13, _⟩ => ⟨S50000x96, .f32⟩
  | .hbm, ⟨14, _⟩ => ⟨S800000x1, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x96, .f32⟩
  | .hbm, ⟨24, _⟩ => ⟨S800000x96, .f32⟩
  | .hbm, ⟨25, _⟩ => ⟨S800000x96, .f32⟩
  | .hbm, ⟨26, _⟩ => ⟨S_, .f32⟩
  | .hbm, ⟨27, _⟩ => ⟨S50000x96, .f32⟩
  | .hbm, ⟨28, _⟩ => ⟨S800000x1, .i32⟩
  | .hbm, ⟨29, _⟩ => ⟨S50000x96, .f32⟩
  | .hbm, ⟨30, _⟩ => ⟨S50000x96, .f32⟩
  | .local _ .vmem, ⟨0, _⟩ => ⟨S5000x96, .f32⟩
  | .local _ .vmem, ⟨1, _⟩ => ⟨S5000x96, .f32⟩
  | .local _ .vmem, ⟨2, _⟩ => ⟨S96x96, .f32⟩
  | .local _ .vmem, ⟨3, _⟩ => ⟨S1x96, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S5000x96, .f32⟩
  | .local _ .vmem, ⟨8, _⟩ => ⟨S5000x96, .f32⟩
  | .local _ .vmem, ⟨9, _⟩ => ⟨S5000x96, .f32⟩
  | .local _ .vmem, ⟨10, _⟩ => ⟨S96x96, .f32⟩
  | .local _ .vmem, ⟨11, _⟩ => ⟨S1x96, .f32⟩
  | .local _ .vmem, ⟨12, _⟩ => ⟨S96x96, .f32⟩
  | .local _ .vmem, ⟨13, _⟩ => ⟨S1x96, .f32⟩
  | .local _ .vmem, ⟨14, _⟩ => ⟨S5000x96, .f32⟩
  | .local _ .vmem, ⟨15, _⟩ => ⟨S5000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S96x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S96x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x96 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x96 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S96_S1x96 : S96.ShapeCasts S1x96
  inb_S5000x96_S5000x96_0_0 : ∀ a, (![0, 0] : Fin 2 → Nat) a + S5000x96.size a ≤ S5000x96.size a
  h_S5000x96 : 0 < S5000x96.numel
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  shapeCasts_S5000x96_S5000x96 : S5000x96.ShapeCasts S5000x96
  dot_S5000x96_S96x96_S5000x96_1_0_0_1_n_n_wf : DotDims.WF S5000x96 S96x96 S5000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x96.size a ≤ S96x96.size a
  hwx0_1 : ∀ i : grid0.Coords, EltTy.bits .f32 = 32 ∨ (Rect.block (s := S96x96) S96x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x96.size a ≤ S1x96.size a
  hwx0_2 : ∀ i : grid0.Coords, EltTy.bits .f32 = 32 ∨ (Rect.block (s := S1x96) S1x96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x96.size a ≤ S50000x96.size a
  hwx0_3 : ∀ i : grid0.Coords, EltTy.bits .f32 = 32 ∨ (Rect.block (s := S50000x96) S5000x96.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x96.size a ≤ S50000x96.size a
  hwx1_1 : ∀ i : grid1.Coords, EltTy.bits .f32 = 32 ∨ (Rect.block (s := S50000x96) S5000x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x96.size a ≤ S96x96.size a
  hwx1_2 : ∀ i : grid1.Coords, EltTy.bits .f32 = 32 ∨ (Rect.block (s := S96x96) S96x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x96.size a ≤ S1x96.size a
  hwx1_3 : ∀ i : grid1.Coords, EltTy.bits .f32 = 32 ∨ (Rect.block (s := S1x96) S1x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S96x96.size a ≤ S96x96.size a
  hwx1_4 : ∀ i : grid1.Coords, EltTy.bits .f32 = 32 ∨ (Rect.block (s := S96x96) S96x96.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x96.size a ≤ S1x96.size a
  hwx1_5 : ∀ i : grid1.Coords, EltTy.bits .f32 = 32 ∨ (Rect.block (s := S1x96) S1x96.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x96.size a ≤ S50000x96.size a
  hwx1_6 : ∀ i : grid1.Coords, EltTy.bits .f32 = 32 ∨ (Rect.block (s := S50000x96) S5000x96.size (cc1_transform_6 i) (hinb1_6 i)).WholeWords (EltTy.packing .f32)

variable [Facts₀]

def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S96x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S5000x96.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S96x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S96x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1x96.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S5000x96.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x96 : Shape := ⟨2, ![50000, 96]⟩
abbrev S800000 : Shape := ⟨1, ![800000]⟩
abbrev S96x96 : Shape := ⟨2, ![96, 96]⟩
abbrev S96 : Shape := ⟨1, ![96]⟩
abbrev S1x96 : Shape := ⟨2, ![1, 96]⟩
abbrev S800000x1 : Shape := ⟨2, ![800000, 1]⟩
abbrev S_ : Shape := ⟨0, ![]⟩
abbrev S800000x96 : Shape := ⟨2, ![800000, 96]⟩

abbrev nBuf : Space → Nat
  | .hbm => 53
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S800000, .f32⟩
  | .hbm, ⟨2, _⟩ => ⟨S96x96, .f32⟩
  | .hbm, ⟨3, _⟩ => ⟨S96, .f32⟩
  | .hbm, ⟨4, _⟩ => ⟨S96x96, .f32⟩
  | .hbm, ⟨5, _⟩ => ⟨S96, .f32⟩
  | .hbm, ⟨6, _⟩ => ⟨S96x96, .f32⟩
  | .hbm, ⟨7, _⟩ => ⟨S96, .f32⟩
  | .hbm, ⟨8, _⟩ => ⟨S800000, .i32⟩
  | .hbm, ⟨9, _⟩ => ⟨S800000, .i32⟩
  | .hbm, ⟨10, _⟩ => ⟨S50000x96, .f32⟩
  | .hbm, ⟨11, _⟩ => ⟨S1x96, .f32⟩
  | .hbm, ⟨12, _⟩ => ⟨S50000x96, .f32⟩
  | .hbm, ⟨13, _⟩ => ⟨S50000x96, .f32⟩
  | .hbm, ⟨14, _⟩ => ⟨S800000x1, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x96, .f32⟩
  | .hbm, ⟨24, _⟩ => ⟨S800000x96, .f32⟩
  | .hbm, ⟨25, _⟩ => ⟨S800000x96, .f32⟩
  | .hbm, ⟨26, _⟩ => ⟨S_, .f32⟩
  | .hbm, ⟨27, _⟩ => ⟨S50000x96, .f32⟩
  | .hbm, ⟨28, _⟩ => ⟨S800000x1, .i32⟩
  | .hbm, ⟨29, _⟩ => ⟨S50000x96, .f32⟩
  | .hbm, ⟨30, _⟩ => ⟨S50000x96, .f32⟩
  | .hbm, ⟨31, _⟩ => ⟨S1x96, .f32⟩
  | .hbm, ⟨32, _⟩ => ⟨S50000x96, .f32⟩
  | .hbm, ⟨33, _⟩ => ⟨S50000x96, .f32⟩
  | .hbm, ⟨34, _⟩ => ⟨S50000x96, .f32⟩
  | .hbm, ⟨35, _⟩ => ⟨S50000x96, .f32⟩
  | .hbm, ⟨36, _⟩ => ⟨S1x96, .f32⟩
  | .hbm, ⟨37, _⟩ => ⟨S50000x96, .f32⟩
  | .hbm, ⟨38, _⟩ => ⟨S50000x96, .f32⟩
  | .hbm, ⟨39, _⟩ => ⟨S50000x96, .f32⟩
  | .hbm, ⟨40, _⟩ => ⟨S50000x96, .f32⟩
  | .hbm, ⟨41, _⟩ => ⟨S_, .f32⟩
  | .hbm, ⟨42, _⟩ => ⟨S50000x96, .f32⟩
  | .hbm, ⟨43, _⟩ => ⟨S50000x96, .f32⟩
  | .hbm, ⟨44, _⟩ => ⟨S_, .f32⟩
  | .hbm, ⟨45, _⟩ => ⟨S50000x96, .f32⟩
  | .hbm, ⟨46, _⟩ => ⟨S50000x96, .f32⟩
  | .hbm, ⟨47, _⟩ => ⟨S50000x96, .f32⟩
  | .hbm, ⟨48, _⟩ => ⟨S_, .f32⟩
  | .hbm, ⟨49, _⟩ => ⟨S50000x96, .f32⟩
  | .hbm, ⟨50, _⟩ => ⟨S50000x96, .f32⟩
  | .hbm, ⟨51, _⟩ => ⟨S50000x96, .f32⟩
  | .hbm, ⟨52, _⟩ => ⟨S50000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_1 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  dot_S50000x96_S96x96_S50000x96_1_0_0_1_n_n_wf : DotDims.WF S50000x96 S96x96 S50000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1

variable [Facts₀]

def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf

class Facts : Prop extends Facts₀ where

variable [Facts]
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.Spec.lean ====
/-
  The mathematics both programs compute, entry by entry, on the extended reals.

  A node array `x` of `N` rows and `D` features goes through a dense layer `x·W + b`; its rows are then gathered
  along the edges, scaled, and summed per destination node (that middle step is the same host operations in both
  programs and is never opened here); the aggregate `agg` and the input `x` are mixed by a sigmoid gate
  `g = σ((x·Wi + bi) + (agg·Wn + bn))` into `agg·g + x·(1 − g)`.

  Arrays are read as matrices (`mat`) and vectors (`vec`) of their coordinates, and a matrix of coordinates is an
  array again (`arr2`), so that an entry of an array function is an entry of the textbook formula by `rfl`.
-/
import Idealize.ShloMosaic.Lib.ValueIdx
import Idealize.ShloMosaic.PureOps.Ideal

noncomputable section

open scoped BigOperators

namespace GatedConv

open Idealize.ShloMosaic Idealize.ShloMosaic.ValueIdx

variable {n0 n1 N D : Nat}

/-- A rank-2 array as the matrix of its entries. -/
def mat (a : (⟨2, ![n0, n1]⟩ : Shape).Idx → EReal) : Fin n0 → Fin n1 → EReal := fun p q => a (ix2 p q)
/-- A rank-1 array as the vector of its entries. -/
def vec (a : (⟨1, ![n0]⟩ : Shape).Idx → EReal) : Fin n0 → EReal := fun q => a (ix1 q)
/-- A matrix of entries as a rank-2 array. -/
def arr2 (f : Fin n0 → Fin n1 → EReal) : (⟨2, ![n0, n1]⟩ : Shape).Idx → EReal := fun j => f (j 0) (j 1)

theorem arr2_apply (f : Fin n0 → Fin n1 → EReal) (p : Fin n0) (q : Fin n1) : arr2 f (ix2 p q) = f p q := rfl
theorem mat_apply (a : (⟨2, ![n0, n1]⟩ : Shape).Idx → EReal) (p : Fin n0) (q : Fin n1) : mat a p q = a (ix2 p q) := rfl
theorem vec_apply (a : (⟨1, ![n0]⟩ : Shape).Idx → EReal) (q : Fin n0) : vec a q = a (ix1 q) := rfl

/-- Two rank-2 arrays with the same entries are equal. -/
theorem ext2 {f g : (⟨2, ![n0, n1]⟩ : Shape).Idx → EReal} (h : ∀ p q, f (ix2 p q) = g (ix2 p q)) : f = g :=
  funext fun j => by rw [eq_ix2 j]; exact h _ _

/-- The dense layer: entry `(p, q)` of `x·w + b`. -/
def dense (x : Fin N → Fin D → EReal) (w : Fin D → Fin D → EReal) (b : Fin D → EReal) (p : Fin N) (q : Fin D) : EReal :=
  (∑ k : Fin D, x p k * w k q) + b q

/-- The gate's argument at `(p, q)`: the two dense layers added. -/
def gateArg (x agg : Fin N → Fin D → EReal) (wi : Fin D → Fin D → EReal) (bi : Fin D → EReal)
    (wn : Fin D → Fin D → EReal) (bn : Fin D → EReal) (p : Fin N) (q : Fin D) : EReal :=
  dense x wi bi p q + dense agg wn bn p q

/-- The gated mix at `(p, q)`: `agg·g + x·(1 − g)` with `g` the sigmoid of the gate's argument. -/
def gated (x agg : Fin N → Fin D → EReal) (wi : Fin D → Fin D → EReal) (bi : Fin D → EReal)
    (wn : Fin D → Fin D → EReal) (bn : Fin D → EReal) (p : Fin N) (q : Fin D) : EReal :=
  agg p q * Ideal.logistic (gateArg x agg wi bi wn bn p q) + x p q * (1 - Ideal.logistic (gateArg x agg wi bi wn bn p q))

/-- The dense layer as an array function of its argument arrays. -/
def denseArr (x : (⟨2, ![N, D]⟩ : Shape).Idx → EReal) (w : (⟨2, ![D, D]⟩ : Shape).Idx → EReal)
    (b : (⟨1, ![D]⟩ : Shape).Idx → EReal) : (⟨2, ![N, D]⟩ : Shape).Idx → EReal :=
  arr2 (dense (mat x) (mat w) (vec b))

/-- The gated mix as an array function of its argument arrays. -/
def gatedArr (x agg : (⟨2, ![N, D]⟩ : Shape).Idx → EReal) (wi : (⟨2, ![D, D]⟩ : Shape).Idx → EReal)
    (bi : (⟨1, ![D]⟩ : Shape).Idx → EReal) (wn : (⟨2, ![D, D]⟩ : Shape).Idx → EReal)
    (bn : (⟨1, ![D]⟩ : Shape).Idx → EReal) : (⟨2, ![N, D]⟩ : Shape).Idx → EReal :=
  arr2 (gated (mat x) (mat agg) (mat wi) (vec bi) (mat wn) (vec bn))

end GatedConv

end
-- ==== Proof.Payloads.lean ====
/-
  What the two kernel bodies store, entry by entry, on the extended reals.

  The first body stores `x·w + b` of its row block: the matrix product into a zero accumulator is the sum over the
  contracted axis, the format changes are the identity, and the one-row bias is repeated down the rows.  The
  second body stores the gated mix of its two row blocks: two such dense layers added, the sigmoid of that, and
  `agg·g + x·(1 − g)`.
-/
import proofs.«104606_j26680336842924_1_alg».proof.Proof.Gen.KernelIdeal.Skeleton
import proofs.«104606_j26680336842924_1_alg».proof.Proof.LibPlainDot
import proofs.«104606_j26680336842924_1_alg».proof.Proof.Spec
import Idealize.ShloMosaic.Lib.Pipeline.Value
import Idealize.ShloMosaic.Lib.ValueIdx
import Idealize.ShloMosaic.Lib.ValueLayout
import Idealize.ShloMosaic.Lib.IdealHost

noncomputable section

open scoped BigOperators

namespace Cert.KernelIdeal.Payloads

open Cert.KernelIdeal Cert.KernelIdeal.Gen Idealize.ShloMosaic Idealize.ShloMosaic.ValueIdx GatedConv

/-- The kernels' matrix products contract the left operand's columns with the right operand's rows. -/
theorem plain : PlainDot.IsPlain (M := 5000) (K := 96) (N := 96) dot_S5000x96_S96x96_S5000x96_1_0_0_1_n_n :=
  ⟨rfl, rfl, rfl, rfl, rfl, rfl⟩

/-- One dense layer of a row block at an entry: the product's sum plus the bias row's entry. -/
theorem denseBlock_apply (x : Vec Ideal S5000x96 .f32) (w : Vec Ideal S96x96 .f32) (b : Vec Ideal S1x96 .f32)
    (r : Fin 5000) (q : Fin 96) :
    addf (F := Ideal) (matmul dot_S5000x96_S96x96_S5000x96_1_0_0_1_n_n none (truncf .bf16 x bitsLt_bf16_f32) (truncf .bf16 w bitsLt_bf16_f32)
        (constant S5000x96 .f32 0x00000000#32))
      (broadcastTo S5000x96 (shapeCast S1x96 b shapeCasts_S1x96_S1x96) broadcasts_S1x96_S5000x96) (ix2 r q)
      = dense (mat x) (mat w) (fun q => b (ix2 (0 : Fin 1) q)) r q := by
  rw [addf_apply, shapeCast_self, broadcastTo_1b_ab_apply]
  rw [PlainDot.matmul_zero_apply plain]
  rfl

/-- The first body's store at an entry. -/
theorem dense_pay_apply (v0 : Vec Ideal S5000x96 .f32) (v2 : Vec Ideal S96x96 .f32) (v5 : Vec Ideal S1x96 .f32)
    (r : Fin 5000) (q : Fin 96) :
    k0_pay1 (F := Ideal) v0 v2 v5 (ix2 r q) = dense (mat v0) (mat v2) (fun q => v5 (ix2 (0 : Fin 1) q)) r q := by
  unfold k0_pay1
  exact denseBlock_apply v0 v2 v5 r q

/-- The second body's store at an entry. -/
theorem gate_pay_apply (v0 v1 : Vec Ideal S5000x96 .f32) (v5 v7 : Vec Ideal S96x96 .f32) (v10 v15 : Vec Ideal S1x96 .f32)
    (r : Fin 5000) (q : Fin 96) :
    k1_pay1 (F := Ideal) v0 v1 v5 v7 v10 v15 (ix2 r q)
      = gated (mat v0) (mat v1) (mat v5) (fun q => v10 (ix2 (0 : Fin 1) q)) (mat v7) (fun q => v15 (ix2 (0 : Fin 1) q)) r q := by
  unfold k1_pay1
  rw [shapeCast_self]
  rw [addf_apply, mulf_apply, mulf_apply, subf_apply, broadcast_apply]
  show v1 (ix2 r q) * Ideal.logistic (addf (F := Ideal) (s := S5000x96) (φ := .f32) _ _ (ix2 r q)) + v0 (ix2 r q) * (Ideal.ofBits .f32 0x3F800000#32 - Ideal.logistic (addf (F := Ideal) (s := S5000x96) (φ := .f32) _ _ (ix2 r q))) = _
  rw [addf_apply, denseBlock_apply, denseBlock_apply, Ideal.ofBits_one_f32]
  rfl

end Cert.KernelIdeal.Payloads

end
-- ==== Proof.DenseRegion.lean ====
/-
  The dense layer's array after the first kernel region.

  Grid point `t` of the region stages rows `5000·t … 5000·t + 4999` of the node array, the whole weight matrix and the
  one-row bias, and writes back the same rows of the result.  Each written row block is the block of ONE array
  function of the region's argument arrays — entry `(p, q)` is `∑ₖ x(p,k)·w(k,q) + b(0,q)` — and the ten blocks tile the
  result, so the array the region leaves is that function.
-/
import proofs.«104606_j26680336842924_1_alg».proof.Proof.Gen.KernelIdeal.Frame
import proofs.«104606_j26680336842924_1_alg».proof.Proof.Payloads
import Idealize.ShloMosaic.Lib.Pipeline.Value

set_option maxRecDepth 16384

noncomputable section

open scoped BigOperators

namespace Cert.KernelIdeal.DenseRegion

open Cert.KernelIdeal Cert.KernelIdeal.Gen Cert.KernelIdeal.Payloads Idealize.ShloMosaic Idealize.ShloMosaic.TcCoe Idealize.SL.Sem
open Idealize.ShloMosaic.ValueIdx GatedConv
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The dense layer of the arrays the region finds: node array, weights, and the bias as a one-row array. -/
def denseOf (c : Dev nD) : S50000x96.Idx → EReal :=
  arr2 (dense (mat (V c main_arg0)) (mat (V c main_arg2)) (fun q => V c main_v0 (ix2 (0 : Fin 1) q)))

/-- The block indices over the grid: the node array and the result move down one row block per point, the weights
    and the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- An entry of the body's store is the dense layer's entry, once the row block is rows of the node array at the
    same columns and the other two blocks are the whole weight and bias arrays. -/
theorem dense_entry (x0 : Vec Ideal S5000x96 .f32) (x1 : Vec Ideal S96x96 .f32) (x2 : Vec Ideal S1x96 .f32)
    (A0 : S50000x96.Idx → EReal) (A1 : S96x96.Idx → EReal) (A2 : S1x96.Idx → EReal)
    (j : S5000x96.Idx) (i : S50000x96.Idx)
    (e0 : ∀ k : Fin 96, x0 (ix2 (j 0) k) = A0 (ix2 (i 0) k)) (e1 : x1 = A1) (e2 : x2 = A2) (hq : (i 1).val = (j 1).val) :
    k0_pay1 (F := Ideal) x0 x1 x2 j = arr2 (dense (mat A0) (mat A1) (fun q => A2 (ix2 (0 : Fin 1) q))) i := by
  subst e1 e2
  obtain ⟨r, q, rfl⟩ : ∃ (r : Fin 5000) (q : Fin 96), j = ix2 r q := ⟨j 0, j 1, eq_ix2 j⟩
  obtain ⟨p, q', rfl⟩ : ∃ (p : Fin 50000) (q' : Fin 96), i = ix2 p q' := ⟨i 0, i 1, eq_ix2 i⟩
  obtain rfl : q' = q := Fin.ext hq
  rw [dense_pay_apply, arr2_apply]
  unfold dense
  congr 1
  refine Finset.sum_congr rfl fun k _ => ?_
  show x0 (ix2 r k) * x1 (ix2 k q') = A0 (ix2 p k) * x1 (ix2 k q')
  rw [show x0 (ix2 r k) = A0 (ix2 p k) from e0 k]

/-- WHAT POINT `t` WRITES BACK is block `t` of the dense layer of the arrays the region finds. -/
theorem flushed_eq (c : Dev nD) (t : Fin cfg0.N) :
    (dat0 V c).flushed 3 t = ((cfg0.win 3).blk t).view.read (Elt Ideal) (denseOf V c) := by
  show (cfg0.win 3).cut (grid0.coords t) ((dat0 V c).after 3 t) = _
  rw [after0_3]
  unfold out0_3
  rw [View.canon_unit_zero hz]
  simp only [View.ld_unit_zero (S := S5000x96) hz, View.ld_unit_zero (S := S96x96) hz, View.ld_unit_zero (S := S1x96) hz]
  obtain ⟨a0, a1, b0, b1, c0, c1, d0, d1⟩ := idx_facts t
  funext j
  show k0_pay1 (F := Ideal) (iblk0 V c 0 t) (iblk0 V c 1 t) (iblk0 V c 2 t) j = denseOf V c (((cfg0.win 3).blk t).view.emb j)
  unfold denseOf
  refine dense_entry (iblk0 V c 0 t) (iblk0 V c 1 t) (iblk0 V c 2 t) (V c main_arg0) (V c main_arg2) (V c main_v0) j
    (((cfg0.win 3).blk t).view.emb j) (fun k => ?_) (funext fun y => ?_) (funext fun y => ?_) ?_
  · show V c main_arg0 (((cfg0.win 0).blk t).view.emb (ix2 (j 0) k)) = V c main_arg0 (ix2 ((((cfg0.win 3).blk t).view.emb j) 0) k)
    refine congrArg (V c main_arg0) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 96 + 1 * k.val = k.val; omega
  · show V c main_arg2 (((cfg0.win 1).blk t).view.emb y) = V c main_arg2 y
    refine congrArg (V c main_arg2) (funext fun a => Fin.ext ?_)
    match a with
    | ⟨0, _⟩ => show win0_1.index t (0 : Fin 2) * 96 + 1 * (y 0).val = (y 0).val; omega
    | ⟨1, _⟩ => show win0_1.index t (1 : Fin 2) * 96 + 1 * (y 1).val = (y 1).val; omega
  · show V c main_v0 (((cfg0.win 2).blk t).view.emb y) = V c main_v0 y
    refine congrArg (V c main_v0) (funext fun a => Fin.ext ?_)
    match a with
    | ⟨0, _⟩ => show win0_2.index t (0 : Fin 2) * 1 + 1 * (y 0).val = (y 0).val; omega
    | ⟨1, _⟩ => show win0_2.index t (1 : Fin 2) * 96 + 1 * (y 1).val = (y 1).val; omega
  · show win0_3.index t (1 : Fin 2) * 96 + 1 * (j 1).val = (j 1).val
    omega

/-- An index of the result array is in point `t`'s block iff each coordinate is in the block's range on its axis. -/
theorem mem_blk (t : Fin cfg0.N) (i : S50000x96.Idx) :
    i ∈ ((cfg0.win 3).blk t).view.set ↔ ∀ a : Fin 2, win0_3.index t a * S5000x96.size a ≤ (i a).val ∧ (i a).val < win0_3.index t a * S5000x96.size a + S5000x96.size a := by
  show i ∈ ((View.whole main_v3).slice (win0_3.rect t)).set ↔ _
  rw [View.set_slice_whole, Rect.mem_set_unit]
  exact Iff.rfl

/-- Every point writes its block back. -/
theorem flush_all (t : Fin cfg0.N) : (cfg0.win 3).flush t = true := flush0_3 t

/-- Row `p` lies in the block of point `p / 5000`: the ten row blocks tile the result. -/
theorem cover (i : S50000x96.Idx) : ∃ t : Fin cfg0.N, (cfg0.win 3).flush t = true ∧ i ∈ ((cfg0.win 3).blk t).view.set := by
  have hi0 : (i 0).val < 50000 := (i 0).isLt
  have hi1 : (i 1).val < 96 := (i 1).isLt
  have hN : cfg0.N = 10 := N_0
  refine ⟨⟨(i 0).val / 5000, by rw [hN]; omega⟩, flush_all _, ?_⟩
  rw [mem_blk]
  obtain ⟨a0, a1, b0, b1, c0, c1, d0, d1⟩ := idx_facts ⟨(i 0).val / 5000, by rw [hN]; omega⟩
  intro a
  match a with
  | ⟨0, _⟩ => show win0_3.index _ (0 : Fin 2) * 5000 ≤ (i 0).val ∧ (i 0).val < win0_3.index _ (0 : Fin 2) * 5000 + 5000; rw [d0]; show (i 0).val / 5000 * 5000 ≤ (i 0).val ∧ (i 0).val < (i 0).val / 5000 * 5000 + 5000; omega
  | ⟨1, _⟩ => show win0_3.index _ (1 : Fin 2) * 96 ≤ (i 1).val ∧ (i 1).val < win0_3.index _ (1 : Fin 2) * 96 + 96; rw [d1]; omega

/-- THE ARRAY the first region leaves: the dense layer of the arrays it found. -/
theorem array_eq (c : Dev nD) : (dat0 V c).arrAt 3 cfg0.N = denseOf V c :=
  (dat0 V c).arrAt_eq_of_cover 3 (denseOf V c) (fun t _ => flushed_eq V c t) cover

end Cert.KernelIdeal.DenseRegion

end
-- ==== Proof.GateRegion.lean ====
/-
  The gated mix's array after the second kernel region.

  Grid point `t` of the region stages rows `5000·t … 5000·t + 4999` of the node array and of the aggregate, the two
  whole weight matrices and the two one-row biases, and writes back the same rows of the result.  Each written
  row block is the block of ONE array function of the region's argument arrays — entry `(p, q)` is
  `agg(p,q)·g + x(p,q)·(1 − g)` with `g` the sigmoid of the two dense layers added — and the ten blocks tile the
  result, so the array the region leaves is that function.
-/
import proofs.«104606_j26680336842924_1_alg».proof.Proof.Gen.KernelIdeal.Frame
import proofs.«104606_j26680336842924_1_alg».proof.Proof.Payloads
import Idealize.ShloMosaic.Lib.Pipeline.Value

set_option maxRecDepth 16384

noncomputable section

open scoped BigOperators

namespace Cert.KernelIdeal.GateRegion

open Cert.KernelIdeal Cert.KernelIdeal.Gen Cert.KernelIdeal.Payloads Idealize.ShloMosaic Idealize.ShloMosaic.TcCoe Idealize.SL.Sem
open Idealize.ShloMosaic.ValueIdx GatedConv
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The gated mix of the arrays the region finds: node array, aggregate, the two weight matrices, and the two
    biases as one-row arrays. -/
def gatedOf (c : Dev nD) : S50000x96.Idx → EReal :=
  arr2 (gated (mat (V c main_arg0)) (mat (V c main_v16)) (mat (V c main_arg4)) (fun q => V c main_v1 (ix2 (0 : Fin 1) q))
    (mat (V c main_arg6)) (fun q => V c main_v2 (ix2 (0 : Fin 1) q)))

/-- The block indices over the grid: the node array, the aggregate and the result move down one row block per
    point, the weights and the biases stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- An entry of the body's store is the gated mix's entry, once the two row blocks are rows of the node array and of
    the aggregate at the same columns and the other four blocks are the whole weight and bias arrays. -/
theorem gated_entry (x0 x1 : Vec Ideal S5000x96 .f32) (x2 : Vec Ideal S96x96 .f32) (x3 : Vec Ideal S1x96 .f32)
    (x4 : Vec Ideal S96x96 .f32) (x5 : Vec Ideal S1x96 .f32)
    (A0 A1 : S50000x96.Idx → EReal) (A2 : S96x96.Idx → EReal) (A3 : S1x96.Idx → EReal) (A4 : S96x96.Idx → EReal) (A5 : S1x96.Idx → EReal)
    (j : S5000x96.Idx) (i : S50000x96.Idx)
    (e0 : ∀ k : Fin 96, x0 (ix2 (j 0) k) = A0 (ix2 (i 0) k)) (e1 : ∀ k : Fin 96, x1 (ix2 (j 0) k) = A1 (ix2 (i 0) k))
    (e2 : x2 = A2) (e3 : x3 = A3) (e4 : x4 = A4) (e5 : x5 = A5) (hq : (i 1).val = (j 1).val) :
    k1_pay1 (F := Ideal) x0 x1 x2 x4 x3 x5 j
      = arr2 (gated (mat A0) (mat A1) (mat A2) (fun q => A3 (ix2 (0 : Fin 1) q)) (mat A4) (fun q => A5 (ix2 (0 : Fin 1) q))) i := by
  subst e2 e3 e4 e5
  obtain ⟨r, q, rfl⟩ : ∃ (r : Fin 5000) (q : Fin 96), j = ix2 r q := ⟨j 0, j 1, eq_ix2 j⟩
  obtain ⟨p, q', rfl⟩ : ∃ (p : Fin 50000) (q' : Fin 96), i = ix2 p q' := ⟨i 0, i 1, eq_ix2 i⟩
  obtain rfl : q' = q := Fin.ext hq
  rw [gate_pay_apply, arr2_apply]
  have h0 : ∀ k : Fin 96, mat x0 r k = mat A0 p k := e0
  have h1 : ∀ k : Fin 96, mat x1 r k = mat A1 p k := e1
  unfold gated gateArg dense
  simp only [h0, h1]

/-- WHAT POINT `t` WRITES BACK is block `t` of the gated mix of the arrays the region finds. -/
theorem flushed_eq (c : Dev nD) (t : Fin cfg1.N) :
    (dat1 V c).flushed 6 t = ((cfg1.win 6).blk t).view.read (Elt Ideal) (gatedOf V c) := by
  show (cfg1.win 6).cut (grid1.coords t) ((dat1 V c).after 6 t) = _
  rw [after1_6]
  unfold out1_6
  rw [View.canon_unit_zero hz]
  simp only [View.ld_unit_zero (S := S5000x96) hz, View.ld_unit_zero (S := S96x96) hz, View.ld_unit_zero (S := S1x96) hz]
  obtain ⟨a0, a1, b0, b1, c0, c1, d0, d1, e0, e1, f0, f1, g0, g1⟩ := idx_facts t
  funext j
  show k1_pay1 (F := Ideal) (iblk1 V c 0 t) (iblk1 V c 1 t) (iblk1 V c 2 t) (iblk1 V c 4 t) (iblk1 V c 3 t) (iblk1 V c 5 t) j = gatedOf V c (((cfg1.win 6).blk t).view.emb j)
  unfold gatedOf
  refine gated_entry (iblk1 V c 0 t) (iblk1 V c 1 t) (iblk1 V c 2 t) (iblk1 V c 3 t) (iblk1 V c 4 t) (iblk1 V c 5 t)
    (V c main_arg0) (V c main_v16) (V c main_arg4) (V c main_v1) (V c main_arg6) (V c main_v2) j
    (((cfg1.win 6).blk t).view.emb j) (fun k => ?_) (fun k => ?_) (funext fun y => ?_) (funext fun y => ?_) (funext fun y => ?_) (funext fun y => ?_) ?_
  · show V c main_arg0 (((cfg1.win 0).blk t).view.emb (ix2 (j 0) k)) = V c main_arg0 (ix2 ((((cfg1.win 6).blk t).view.emb j) 0) k)
    refine congrArg (V c main_arg0) (funext fun a => Fin.ext ?_)
    match a with
    | ⟨0, _⟩ => show win1_0.index t (0 : Fin 2) * 5000 + 1 * (j 0).val = win1_6.index t (0 : Fin 2) * 5000 + 1 * (j 0).val; omega
    | ⟨1, _⟩ => show win1_0.index t (1 : Fin 2) * 96 + 1 * k.val = k.val; omega
  · show V c main_v16 (((cfg1.win 1).blk t).view.emb (ix2 (j 0) k)) = V c main_v16 (ix2 ((((cfg1.win 6).blk t).view.emb j) 0) k)
    refine congrArg (V c main_v16) (funext fun a => Fin.ext ?_)
    match a with
    | ⟨0, _⟩ => show win1_1.index t (0 : Fin 2) * 5000 + 1 * (j 0).val = win1_6.index t (0 : Fin 2) * 5000 + 1 * (j 0).val; omega
    | ⟨1, _⟩ => show win1_1.index t (1 : Fin 2) * 96 + 1 * k.val = k.val; omega
  · show V c main_arg4 (((cfg1.win 2).blk t).view.emb y) = V c main_arg4 y
    refine congrArg (V c main_arg4) (funext fun a => Fin.ext ?_)
    match a with
    | ⟨0, _⟩ => show win1_2.index t (0 : Fin 2) * 96 + 1 * (y 0).val = (y 0).val; omega
    | ⟨1, _⟩ => show win1_2.index t (1 : Fin 2) * 96 + 1 * (y 1).val = (y 1).val; omega
  · show V c main_v1 (((cfg1.win 3).blk t).view.emb y) = V c main_v1 y
    refine congrArg (V c main_v1) (funext fun a => Fin.ext ?_)
    match a with
    | ⟨0, _⟩ => show win1_3.index t (0 : Fin 2) * 1 + 1 * (y 0).val = (y 0).val; omega
    | ⟨1, _⟩ => show win1_3.index t (1 : Fin 2) * 96 + 1 * (y 1).val = (y 1).val; omega
  · show V c main_arg6 (((cfg1.win 4).blk t).view.emb y) = V c main_arg6 y
    refine congrArg (V c main_arg6) (funext fun a => Fin.ext ?_)
    match a with
    | ⟨0, _⟩ => show win1_4.index t (0 : Fin 2) * 96 + 1 * (y 0).val = (y 0).val; omega
    | ⟨1, _⟩ => show win1_4.index t (1 : Fin 2) * 96 + 1 * (y 1).val = (y 1).val; omega
  · show V c main_v2 (((cfg1.win 5).blk t).view.emb y) = V c main_v2 y
    refine congrArg (V c main_v2) (funext fun a => Fin.ext ?_)
    match a with
    | ⟨0, _⟩ => show win1_5.index t (0 : Fin 2) * 1 + 1 * (y 0).val = (y 0).val; omega
    | ⟨1, _⟩ => show win1_5.index t (1 : Fin 2) * 96 + 1 * (y 1).val = (y 1).val; omega
  · show win1_6.index t (1 : Fin 2) * 96 + 1 * (j 1).val = (j 1).val
    omega

/-- An index of the result array is in point `t`'s block iff each coordinate is in the block's range on its axis. -/
theorem mem_blk (t : Fin cfg1.N) (i : S50000x96.Idx) :
    i ∈ ((cfg1.win 6).blk t).view.set ↔ ∀ a : Fin 2, win1_6.index t a * S5000x96.size a ≤ (i a).val ∧ (i a).val < win1_6.index t a * S5000x96.size a + S5000x96.size a := by
  show i ∈ ((View.whole main_v17).slice (win1_6.rect t)).set ↔ _
  rw [View.set_slice_whole, Rect.mem_set_unit]
  exact Iff.rfl

/-- Row `p` lies in the block of point `p / 5000`: the ten row blocks tile the result. -/
theorem cover (i : S50000x96.Idx) : ∃ t : Fin cfg1.N, (cfg1.win 6).flush t = true ∧ i ∈ ((cfg1.win 6).blk t).view.set := by
  have hi0 : (i 0).val < 50000 := (i 0).isLt
  have hi1 : (i 1).val < 96 := (i 1).isLt
  have hN : cfg1.N = 10 := N_1
  refine ⟨⟨(i 0).val / 5000, by rw [hN]; omega⟩, flush1_6 _, ?_⟩
  rw [mem_blk]
  obtain ⟨a0, a1, b0, b1, c0, c1, d0, d1, e0, e1, f0, f1, g0, g1⟩ := idx_facts ⟨(i 0).val / 5000, by rw [hN]; omega⟩
  intro a
  match a with
  | ⟨0, _⟩ => show win1_6.index _ (0 : Fin 2) * 5000 ≤ (i 0).val ∧ (i 0).val < win1_6.index _ (0 : Fin 2) * 5000 + 5000; rw [g0]; show (i 0).val / 5000 * 5000 ≤ (i 0).val ∧ (i 0).val < (i 0).val / 5000 * 5000 + 5000; omega
  | ⟨1, _⟩ => show win1_6.index _ (1 : Fin 2) * 96 ≤ (i 1).val ∧ (i 1).val < win1_6.index _ (1 : Fin 2) * 96 + 96; rw [g1]; omega

/-- THE ARRAY the second region leaves: the gated mix of the arrays it found. -/
theorem array_eq (c : Dev nD) : (dat1 V c).arrAt 6 cfg1.N = gatedOf V c :=
  (dat1 V c).arrAt_eq_of_cover 6 (gatedOf V c) (fun t _ => flushed_eq V c t) cover

end Cert.KernelIdeal.GateRegion

end
-- ==== Proof.Between.lean ====
/-
  The arrays each kernel region finds, read back to the launch contents of the arguments.

  Before the first region the host only recasts the three bias vectors as one-row arrays.  Between the regions it
  gathers the dense layer's rows along the edges, scales them by the edge weights and sums them per destination node:
  that chain is kept as ONE function `mid` of the dense layer's array and of three argument arrays, and is never
  opened.  No host operation and no region writes an argument array, so every argument a region stages is still its
  launch contents.
-/
import proofs.«104606_j26680336842924_1_alg».proof.Proof.Gen.KernelIdeal.Frame
import Idealize.ShloMosaic.Lib.StableHlo.Run
import Idealize.ShloMosaic.PureOps.Ideal

set_option maxRecDepth 16384

noncomputable section

namespace Cert.KernelIdeal.Between

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- The middle chain: the edge gather of `newX`'s rows (a negative column index wrapped by the row count), the
    scaling by the edge weights, and the sum per destination row into a zero array. -/
def mid (newX : (⟨S50000x96, .f32⟩ : BufTy).Contents (Elt Ideal)) (a : (⟨S800000, .f32⟩ : BufTy).Contents (Elt Ideal))
    (row col : (⟨S800000, .i32⟩ : BufTy).Contents (Elt Ideal)) : (⟨S50000x96, .f32⟩ : BufTy).Contents (Elt Ideal) :=
  Host.scatterAdd (F := Ideal) scatter_S50000x96_S800000x1_S800000x96_1_0_0_1 (broadcastInDim S50000x96 ![] bcast_S_S50000x96 (constant (F := Ideal) S_ .f32 0x00000000#32)) (broadcastInDim S800000x1 ![0] bcast_S800000_S800000x1_0 row) (mulf (F := Ideal) (broadcastInDim S800000x96 ![0, 1] bcast_S800000x1_S800000x96_0_1 (broadcastInDim S800000x1 ![0] bcast_S800000_S800000x1_0 a)) (Host.gather gather_S50000x96_S800000x1_S800000x96_1_0_n_n_0_1_196 newX (broadcastInDim S800000x1 ![0] bcast_S800000_S800000x1_0 (select (cmpi .slt col (broadcastInDim S800000 ![] bcast_S_S800000 (constantI S_ 32 0#32))) (addi col (broadcastInDim S800000 ![] bcast_S_S800000 (constantI S_ 32 50000#32))) col))))

/-! ## What the first region finds -/

theorem first_arg0 (c : Dev nD) : V1 m ρ c main_arg0 = m ((c : Thread nD τ).loc main_arg0) := by
  show StableHlo.after hostOps0 (W0 m ρ c) (Proc.devRef .tc main_arg0) = _
  after_results

theorem first_arg2 (c : Dev nD) : V1 m ρ c main_arg2 = m ((c : Thread nD τ).loc main_arg2) := by
  show StableHlo.after hostOps0 (W0 m ρ c) (Proc.devRef .tc main_arg2) = _
  after_results

/-- The first bias as the region finds it: the vector recast as a one-row array. -/
theorem first_bias (c : Dev nD) : V1 m ρ c main_v0 = shapeCast S1x96 (m ((c : Thread nD τ).loc main_arg3)) shapeCasts_S96_S1x96 := by
  show StableHlo.after hostOps0 (W0 m ρ c) (Proc.devRef .tc main_v0) = _
  after_results
  rfl

/-! ## The contents between the regions -/

/-- The dense layer's array as the first region leaves it. -/
theorem mid_dense (c : Dev nD) : W2 m ρ c (Proc.devRef .tc main_v3) = (dat0 (V1 m ρ) c).arrAt 3 cfg0.N := W2_arr m ρ c 3

theorem mid_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (first_arg0 m ρ c)

theorem mid_arg1 (c : Dev nD) : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  after_results

theorem mid_arg4 (c : Dev nD) : W2 m ρ c (Proc.devRef .tc main_arg4) = m ((c : Thread nD τ).loc main_arg4) := by
  rw [W2_of_ne m ρ c main_arg4 (by decide)]
  show StableHlo.after hostOps0 (W0 m ρ c) (Proc.devRef .tc main_arg4) = _
  after_results

theorem mid_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results

theorem mid_arg8 (c : Dev nD) : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results

theorem mid_arg9 (c : Dev nD) : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  after_results

theorem mid_bias_i (c : Dev nD) : W2 m ρ c (Proc.devRef .tc main_v1) = shapeCast S1x96 (m ((c : Thread nD τ).loc main_arg5)) shapeCasts_S96_S1x96 := by
  rw [W2_of_ne m ρ c main_v1 (by decide)]
  show StableHlo.after hostOps0 (W0 m ρ c) (Proc.devRef .tc main_v1) = _
  after_results
  rfl

theorem mid_bias_n (c : Dev nD) : W2 m ρ c (Proc.devRef .tc main_v2) = shapeCast S1x96 (m ((c : Thread nD τ).loc main_arg7)) shapeCasts_S96_S1x96 := by
  rw [W2_of_ne m ρ c main_v2 (by decide)]
  show StableHlo.after hostOps0 (W0 m ρ c) (Proc.devRef .tc main_v2) = _
  after_results
  rfl

/-! ## What the second region finds -/

theorem second_arg0 (c : Dev nD) : V3 m ρ c main_arg0 = m ((c : Thread nD τ).loc main_arg0) := by
  show StableHlo.after hostOps1 (W2 m ρ c) (Proc.devRef .tc main_arg0) = _
  after_results
  exact mid_arg0 m ρ c

theorem second_arg4 (c : Dev nD) : V3 m ρ c main_arg4 = m ((c : Thread nD τ).loc main_arg4) := by
  show StableHlo.after hostOps1 (W2 m ρ c) (Proc.devRef .tc main_arg4) = _
  after_results
  exact mid_arg4 m ρ c

theorem second_arg6 (c : Dev nD) : V3 m ρ c main_arg6 = m ((c : Thread nD τ).loc main_arg6) := by
  show StableHlo.after hostOps1 (W2 m ρ c) (Proc.devRef .tc main_arg6) = _
  after_results
  exact mid_arg6 m ρ c

theorem second_bias_i (c : Dev nD) : V3 m ρ c main_v1 = shapeCast S1x96 (m ((c : Thread nD τ).loc main_arg5)) shapeCasts_S96_S1x96 := by
  show StableHlo.after hostOps1 (W2 m ρ c) (Proc.devRef .tc main_v1) = _
  after_results
  exact mid_bias_i m ρ c

theorem second_bias_n (c : Dev nD) : V3 m ρ c main_v2 = shapeCast S1x96 (m ((c : Thread nD τ).loc main_arg7)) shapeCasts_S96_S1x96 := by
  show StableHlo.after hostOps1 (W2 m ρ c) (Proc.devRef .tc main_v2) = _
  after_results
  exact mid_bias_n m ρ c

/-- The aggregate the second region finds: the middle chain of the array the first region left. -/
theorem second_agg (c : Dev nD) :
    V3 m ρ c main_v16 = mid ((dat0 (V1 m ρ) c).arrAt 3 cfg0.N) (m ((c : Thread nD τ).loc main_arg1))
      (m ((c : Thread nD τ).loc main_arg8)) (m ((c : Thread nD τ).loc main_arg9)) := by
  generalize hR : mid ((dat0 (V1 m ρ) c).arrAt 3 cfg0.N) (m ((c : Thread nD τ).loc main_arg1))
      (m ((c : Thread nD τ).loc main_arg8)) (m ((c : Thread nD τ).loc main_arg9)) = R
  show StableHlo.after hostOps1 (W2 m ρ c) (Proc.devRef .tc main_v16) = R
  after_results
  rw [mid_arg1, mid_arg8, mid_arg9, mid_dense]
  exact hR

end Cert.KernelIdeal.Between

end
-- ==== Proof.KernelValue.lean ====
/-
  The kernel program's result as one function of its argument arrays.

  The second region leaves the gated mix of the arrays it found; those are the node array, the two gate weight
  matrices and biases as launched, and the middle chain of the array the first region left, which is the dense layer of
  the node array, the first weight matrix and the first bias as launched.  A bias recast as a one-row array reads, at
  `(0, q)`, the vector at `q`.
-/
import proofs.«104606_j26680336842924_1_alg».proof.Proof.KernelRun
import proofs.«104606_j26680336842924_1_alg».proof.Proof.DenseRegion
import proofs.«104606_j26680336842924_1_alg».proof.Proof.GateRegion
import proofs.«104606_j26680336842924_1_alg».proof.Proof.Between
import Idealize.ShloMosaic.Lib.ValueLayout

set_option maxRecDepth 16384

noncomputable section

namespace Cert.KernelIdeal.KernelValue

open Cert.KernelIdeal Cert.KernelIdeal.Gen Cert.KernelIdeal.Between Idealize.ShloMosaic Idealize.ShloMosaic.TcCoe Idealize.SL.Sem
open Idealize.ShloMosaic.ValueIdx GatedConv

variable (m : (ℓ : Loc nD τ sig) → Buf (Elt Ideal) ℓ) (ρ : Dev nD → PrngReg)

/-- A vector recast as a one-row array, read along its row, is the vector. -/
theorem row_of_vec (b : (⟨S96, .f32⟩ : BufTy).Contents (Elt Ideal)) :
    (fun q : Fin 96 => shapeCast S1x96 b shapeCasts_S96_S1x96 (ix2 (0 : Fin 1) q)) = vec b :=
  funext fun q => shapeCast_a_1a_apply b shapeCasts_S96_S1x96 0 q

/-- The array the first region leaves: the dense layer of the launch contents. -/
theorem dense_result (c : Dev nD) :
    (dat0 (V1 m ρ) c).arrAt 3 cfg0.N
      = denseArr (m ((c : Thread nD τ).loc main_arg0)) (m ((c : Thread nD τ).loc main_arg2)) (m ((c : Thread nD τ).loc main_arg3)) := by
  rw [DenseRegion.array_eq]
  unfold DenseRegion.denseOf denseArr
  rw [first_arg0, first_arg2, first_bias, row_of_vec]

/-- THE RESULT: the array the second region leaves, over the launch contents of the arguments. -/
def result (c : Dev nD) : S50000x96.Idx → EReal :=
  gatedArr (m ((c : Thread nD τ).loc main_arg0))
    (mid (denseArr (m ((c : Thread nD τ).loc main_arg0)) (m ((c : Thread nD τ).loc main_arg2)) (m ((c : Thread nD τ).loc main_arg3)))
      (m ((c : Thread nD τ).loc main_arg1)) (m ((c : Thread nD τ).loc main_arg8)) (m ((c : Thread nD τ).loc main_arg9)))
    (m ((c : Thread nD τ).loc main_arg4)) (m ((c : Thread nD τ).loc main_arg5))
    (m ((c : Thread nD τ).loc main_arg6)) (m ((c : Thread nD τ).loc main_arg7))

theorem result_eq (c : Dev nD) : W4 m ρ c (Proc.devRef .tc main_v17) = result m c := by
  refine (W4_arr m ρ c 6).trans ?_
  rw [GateRegion.array_eq]
  unfold GateRegion.gatedOf result gatedArr
  rw [second_arg0, second_agg, second_arg4, second_bias_i, second_arg6, second_bias_n, dense_result, row_of_vec, row_of_vec]

/-- The kernel program's run with the result array at that function, the arguments unchanged. -/
theorem run : θ_run defs (onTc (τ := τ) (main (F := Ideal))) ⟨m, fun _ => 0, ρ⟩ (fun r => ∀ c : Dev nD,
      r.2.mem ((c.tc : Thread nD τ).loc main_v17) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1.trans (result_eq m ρ c), (h c).2⟩) (Cert.KernelIdeal.Run.run_result (F := Ideal) m ρ)

end Cert.KernelIdeal.KernelValue

end
-- ==== Proof.RefValue.lean ====
/-
  The reference program's result, entry by entry, as the textbook gated mix.

  The reference computes a dense layer `x·W + b`, carries it through a gather along the edges, a scaling and a
  per-node sum (the middle chain, kept as one function `mid` of the dense layer's value and never opened), and
  mixes the aggregate with the input through a sigmoid gate written out as `1 / (1 + exp (-s))`.  Read at an
  entry `(p, q)`, each matrix product is the sum over the contracted coordinate, each broadcast reads its operand
  at the matching coordinate, and the rest is pointwise; the gate's argument differs from the textbook one only in
  how four summands are bracketed.
-/
import proofs.«104606_j26680336842924_1_alg».proof.Proof.Gen.ReferenceIdeal.Read
import proofs.«104606_j26680336842924_1_alg».proof.Proof.Spec
import Idealize.ShloMosaic.Lib.IdealHost

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- The middle chain: the edge gather of `newX`'s rows (a negative column index wrapped by the row count), the
    scaling by the edge weights, and the sum per destination row into a zero array.  One function of the dense
    layer's value; nothing below looks inside it. -/
def mid (newX : (⟨S50000x96, .f32⟩ : BufTy).Contents (Elt Ideal)) (a : (⟨S800000, .f32⟩ : BufTy).Contents (Elt Ideal))
    (row col : (⟨S800000, .i32⟩ : BufTy).Contents (Elt Ideal)) : (⟨S50000x96, .f32⟩ : BufTy).Contents (Elt Ideal) :=
  Host.scatterAdd (F := Ideal) scatter_S50000x96_S800000x1_S800000x96_1_0_0_1 (broadcastInDim S50000x96 ![] bcast_S_S50000x96 (constant (F := Ideal) S_ .f32 0x00000000#32)) (broadcastInDim S800000x1 ![0] bcast_S800000_S800000x1_0 row) (mulf (F := Ideal) (broadcastInDim S800000x96 ![0, 1] bcast_S800000x1_S800000x96_0_1 (broadcastInDim S800000x1 ![0] bcast_S800000_S800000x1_0 a)) (Host.gather gather_S50000x96_S800000x1_S800000x96_1_0_n_n_0_1_196 newX (broadcastInDim S800000x1 ![0] bcast_S800000_S800000x1_0 (select (cmpi .slt col (broadcastInDim S800000 ![] bcast_S_S800000 (constantI S_ 32 0#32))) (addi col (broadcastInDim S800000 ![] bcast_S_S800000 (constantI S_ 32 50000#32))) col))))

/-- The reference's aggregate is the middle chain applied to its dense layer. -/
theorem v16_eq_mid (x0 : (⟨S50000x96, .f32⟩ : BufTy).Contents (Elt Ideal)) (x1 : (⟨S800000, .f32⟩ : BufTy).Contents (Elt Ideal))
    (x2 : (⟨S96x96, .f32⟩ : BufTy).Contents (Elt Ideal)) (x3 : (⟨S96, .f32⟩ : BufTy).Contents (Elt Ideal))
    (x8 x9 : (⟨S800000, .i32⟩ : BufTy).Contents (Elt Ideal)) :
    Read.val_main_v16 (F := Ideal) x0 x1 x2 x3 x8 x9 = mid (Read.val_main_v3 (F := Ideal) x0 x2 x3) x1 x8 x9 := rfl

/-- The reference's dense layer is the textbook one: at `(p, q)` the product's sum over the contracted
    coordinate plus the bias read at the column. -/
theorem v3_eq_dense (x0 : (⟨S50000x96, .f32⟩ : BufTy).Contents (Elt Ideal)) (x2 : (⟨S96x96, .f32⟩ : BufTy).Contents (Elt Ideal))
    (x3 : (⟨S96, .f32⟩ : BufTy).Contents (Elt Ideal)) :
    Read.val_main_v3 (F := Ideal) x0 x2 x3 = GatedConv.denseArr x0 x2 x3 := by
  refine GatedConv.ext2 fun p q => ?_
  have hl : ∀ k : Fin 96, Read.lidx_main_v0 (ix2 p q) k = ix2 p k := fun k => funext fun a => by
    match a with
    | ⟨0, _⟩ => rfl
    | ⟨1, _⟩ => rfl
  have hr : ∀ k : Fin 96, Read.ridx_main_v0 (ix2 p q) k = ix2 k q := fun k => funext fun a => by
    match a with
    | ⟨0, _⟩ => rfl
    | ⟨1, _⟩ => rfl
  have hb : Read.idx_main_v1 (Read.idx_main_v2 (ix2 p q)) = ix1 q := funext fun a => by
    match a with
    | ⟨0, _⟩ => rfl
  rw [Read.val_main_v3_apply, Read.val_main_v0_apply, Read.val_main_v2_apply, Read.val_main_v1_apply]
  simp only [hl, hr, hb, Ideal.addf_def]
  rfl

/-- The reference's result over its argument arrays: the gated mix of the input and the middle chain's value. -/
theorem v36_eq (x0 : (⟨S50000x96, .f32⟩ : BufTy).Contents (Elt Ideal)) (x1 : (⟨S800000, .f32⟩ : BufTy).Contents (Elt Ideal))
    (x2 : (⟨S96x96, .f32⟩ : BufTy).Contents (Elt Ideal)) (x3 : (⟨S96, .f32⟩ : BufTy).Contents (Elt Ideal))
    (x4 : (⟨S96x96, .f32⟩ : BufTy).Contents (Elt Ideal)) (x5 : (⟨S96, .f32⟩ : BufTy).Contents (Elt Ideal))
    (x6 : (⟨S96x96, .f32⟩ : BufTy).Contents (Elt Ideal)) (x7 : (⟨S96, .f32⟩ : BufTy).Contents (Elt Ideal))
    (x8 x9 : (⟨S800000, .i32⟩ : BufTy).Contents (Elt Ideal)) :
    Read.val_main_v36 (F := Ideal) x0 x1 x2 x3 x4 x5 x6 x7 x8 x9
      = GatedConv.gatedArr x0 (mid (GatedConv.denseArr x0 x2 x3) x1 x8 x9) x4 x5 x6 x7 := by
  refine GatedConv.ext2 fun p q => ?_
  have hl17 : ∀ k : Fin 96, Read.lidx_main_v17 (ix2 p q) k = ix2 p k := fun k => funext fun a => by
    match a with
    | ⟨0, _⟩ => rfl
    | ⟨1, _⟩ => rfl
  have hr17 : ∀ k : Fin 96, Read.ridx_main_v17 (ix2 p q) k = ix2 k q := fun k => funext fun a => by
    match a with
    | ⟨0, _⟩ => rfl
    | ⟨1, _⟩ => rfl
  have hl21 : ∀ k : Fin 96, Read.lidx_main_v21 (ix2 p q) k = ix2 p k := fun k => funext fun a => by
    match a with
    | ⟨0, _⟩ => rfl
    | ⟨1, _⟩ => rfl
  have hr21 : ∀ k : Fin 96, Read.ridx_main_v21 (ix2 p q) k = ix2 k q := fun k => funext fun a => by
    match a with
    | ⟨0, _⟩ => rfl
    | ⟨1, _⟩ => rfl
  have hb18 : Read.idx_main_v18 (Read.idx_main_v19 (ix2 p q)) = ix1 q := funext fun a => by
    match a with
    | ⟨0, _⟩ => rfl
  have hb23 : Read.idx_main_v23 (Read.idx_main_v24 (ix2 p q)) = ix1 q := funext fun a => by
    match a with
    | ⟨0, _⟩ => rfl
  rw [Read.val_main_v36_apply, Read.val_main_v32_apply, Read.val_main_v35_apply, Read.val_main_v34_apply,
    Read.val_main_v33_apply, Read.val_main_cst_3_apply, Read.val_main_v31_apply, Read.val_main_v30_apply,
    Read.val_main_cst_2_apply, Read.val_main_v29_apply, Read.val_main_v28_apply, Read.val_main_cst_1_apply,
    Read.val_main_v27_apply, Read.val_main_v26_apply, Read.val_main_v25_apply, Read.val_main_v22_apply,
    Read.val_main_v24_apply, Read.val_main_v23_apply, Read.val_main_v20_apply, Read.val_main_v21_apply,
    Read.val_main_v17_apply, Read.val_main_v19_apply, Read.val_main_v18_apply, v16_eq_mid, v3_eq_dense]
  generalize mid (GatedConv.denseArr x0 x2 x3) x1 x8 x9 = agg
  simp only [hl17, hr17, hl21, hr21, hb18, hb23, Ideal.addf_def, Ideal.mulf_def, Ideal.subf_def, Ideal.hostDivf_def,
    Ideal.hostUnary_exp_def, Ideal.hostNegf_def, Ideal.negf_def, Ideal.ofBits_def, Ideal.ofBits_one_f32]
  show _ = GatedConv.gated (GatedConv.mat x0) (GatedConv.mat agg) (GatedConv.mat x4) (GatedConv.vec x5) (GatedConv.mat x6)
    (GatedConv.vec x7) p q
  unfold GatedConv.gated GatedConv.gateArg GatedConv.dense Ideal.logistic
  simp only [GatedConv.mat_apply, GatedConv.vec_apply]
  rw [add_assoc (∑ k : Fin 96, x0 (ix2 p k) * x4 (ix2 k q) + x5 (ix1 q))]

/-- The run's result term is the gated mix of the input array and the middle chain applied to the textbook dense
    layer, all read from the launch contents of the arguments. -/
theorem result_eq (m : (ℓ : Loc nD τ sig) → Buf (Elt Ideal) ℓ) (c : Dev nD) :
    Cert.ReferenceIdeal.Value.res_main_v36 (F := Ideal) m c
      = GatedConv.gatedArr (m ((c.tc : Thread nD τ).loc main_arg0))
          (mid (GatedConv.denseArr (m ((c.tc : Thread nD τ).loc main_arg0)) (m ((c.tc : Thread nD τ).loc main_arg2))
              (m ((c.tc : Thread nD τ).loc main_arg3)))
            (m ((c.tc : Thread nD τ).loc main_arg1)) (m ((c.tc : Thread nD τ).loc main_arg8))
            (m ((c.tc : Thread nD τ).loc main_arg9)))
          (m ((c.tc : Thread nD τ).loc main_arg4)) (m ((c.tc : Thread nD τ).loc main_arg5))
          (m ((c.tc : Thread nD τ).loc main_arg6)) (m ((c.tc : Thread nD τ).loc main_arg7)) := by
  rw [Read.val_main_v36_eq]
  exact v36_eq _ _ _ _ _ _ _ _ _ _

end Cert.ReferenceIdeal.RefValue

end
-- ==== Proof.lean ====
/-
  The kernel program and the reference compute one function of their arguments on the extended reals.

  Both apply a dense layer `x·W + b` to the node array, carry its value through the same gather along the edges,
  scaling and per-node sum, and mix the aggregate with the input through a sigmoid gate,
  `agg·g + x·(1 − g)` with `g = σ((x·Wi + bi) + (agg·Wn + bn))`.  The kernel program does the dense layer and the gated
  mix in two row-blocked kernel regions (matrix products into a zero accumulator, the format changes the identity on
  the extended reals, the sigmoid one operation); the reference does them with host matrix products and spells the
  sigmoid `1 / (1 + exp (−s))`, bracketing the gate's four summands from the left.  Entry by entry both are the same
  sums and the same sigmoid; the only law used between them is associativity of addition, which holds on all of the
  extended reals, so the precondition is never opened.  The middle chain is the same operations in both programs and
  is carried as one function.  Nothing was rewritten by the idealization, so the kernel program's idealized text is
  its own.
-/
import proofs.«104606_j26680336842924_1_alg».proof.Defs
import proofs.«104606_j26680336842924_1_alg».proof.Proof.Gen.Kernel
import proofs.«104606_j26680336842924_1_alg».proof.Proof.Gen.Kernel.Frame
import proofs.«104606_j26680336842924_1_alg».proof.Proof.Gen.KernelIdeal
import proofs.«104606_j26680336842924_1_alg».proof.Proof.Gen.KernelIdeal.Frame
import proofs.«104606_j26680336842924_1_alg».proof.Proof.Gen.ReferenceIdeal
import proofs.«104606_j26680336842924_1_alg».proof.Proof.Gen.ReferenceIdeal.Run
import proofs.«104606_j26680336842924_1_alg».proof.Proof.Gen.ReferenceIdeal.Read
import proofs.«104606_j26680336842924_1_alg».proof.Proof.Gen.Pre_finite_inputs
import proofs.«104606_j26680336842924_1_alg».proof.Proof.KernelValue
import proofs.«104606_j26680336842924_1_alg».proof.Proof.RefValue
import Idealize.ShloMosaic.Adequacy
import Idealize.ShloMosaic.Init

noncomputable section

namespace Cert.Proof

open Idealize.ShloMosaic Idealize.SL.Sem

/-- The word-level kernel program runs and leaves its arguments: the generated frame. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two programs' middle chains are the same operations with the same dimension numbers: one function. -/
theorem mid_eq : Cert.ReferenceIdeal.RefValue.mid = Cert.KernelIdeal.Between.mid := rfl

/-- From memories that agree on the arguments both programs end with the gated mix of the input and the middle
    chain of the dense layer, read from the same argument arrays. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.RefValue.result_eq, mid_eq, h0, h1, h2, h3, h4, h5, h6, h7, h8, h9]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
